-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x64x64 : Shape := ⟨4, ![64, 32, 64, 64]⟩
abbrev S262144x288 : Shape := ⟨2, ![262144, 288]⟩
abbrev S4096x64x288 : Shape := ⟨3, ![4096, 64, 288]⟩
abbrev S_ : Shape := ⟨0, ![]⟩

class Facts : Prop where
  bcast_S_S64x32x64x64 : S_.BroadcastsInDim S64x32x64x64 (![] : Fin 0 → Fin S64x32x64x64.rank)
  reducesTo_S64x32x64x64_S_d0_1_2_3 : S64x32x64x64.ReducesTo [0, 1, 2, 3] S_
  h_S_ : 0 < S_.numel
  bcast_S_S4096x64x288 : S_.BroadcastsInDim S4096x64x288 (![] : Fin 0 → Fin S4096x64x288.rank)
  reducesTo_S4096x64x288_S_d0_1_2 : S4096x64x288.ReducesTo [0, 1, 2] S_

variable [Facts]

def fn {F : FTy → Type} [FloatOps F] (main_arg0 : FVec F S64x32x64x64 .f32) (main_arg1 : IVec S262144x288 32) (main_arg2 : FVec F S4096x64x288 .f32) : IVec S_ 1 :=
  let main_v0 : FVec F S64x32x64x64 .f32 := Host.absf main_arg0
  let main_cst : FVec F S_ .f32 := constant S_ .f32 0x7F800000#32
  let main_v1 : FVec F S64x32x64x64 .f32 := broadcastInDim S64x32x64x64 ![] bcast_S_S64x32x64x64 main_cst
  let main_v2 : IVec S64x32x64x64 1 := cmpf .olt main_v0 main_v1
  let main_c : IVec S_ 1 := constantI S_ 1 1#1
  let main_v3 : IVec S_ 1 := (fun x v => Host.reduce IntOp.andi x v reducesTo_S64x32x64x64_S_d0_1_2_3 h_S_) main_v2 main_c
  let main_v4 : FVec F S4096x64x288 .f32 := Host.absf main_arg2
  let main_cst_0 : FVec F S_ .f32 := constant S_ .f32 0x7F800000#32
  let main_v5 : FVec F S4096x64x288 .f32 := broadcastInDim S4096x64x288 ![] bcast_S_S4096x64x288 main_cst_0
  let main_v6 : IVec S4096x64x288 1 := cmpf .olt main_v4 main_v5
  let main_c_1 : IVec S_ 1 := constantI S_ 1 1#1
  let main_v7 : IVec S_ 1 := (fun x v => Host.reduce IntOp.andi x v reducesTo_S4096x64x288_S_d0_1_2 h_S_) main_v6 main_c_1
  let main_v8 : IVec S_ 1 := andi main_v3 main_v7
  main_v8
-- ==== Kernel.lean ====
abbrev S64x32x64x64 : Shape := ⟨4, ![64, 32, 64, 64]⟩
abbrev S262144x288 : Shape := ⟨2, ![262144, 288]⟩
abbrev S4096x64x288 : Shape := ⟨3, ![4096, 64, 288]⟩
abbrev S75497472 : Shape := ⟨1, ![75497472]⟩
abbrev S8388608 : Shape := ⟨1, ![8388608]⟩
abbrev S_ : Shape := ⟨0, ![]⟩
abbrev S75497472x1 : Shape := ⟨2, ![75497472, 1]⟩
abbrev S64x4096x288 : Shape := ⟨3, ![64, 4096, 288]⟩
abbrev S4096x288x64 : Shape := ⟨3, ![4096, 288, 64]⟩
abbrev S4096x64x64 : Shape := ⟨3, ![4096, 64, 64]⟩
abbrev S128x64x288 : Shape := ⟨3, ![128, 64, 288]⟩
abbrev S128x288x64 : Shape := ⟨3, ![128, 288, 64]⟩
abbrev S128x64x64 : Shape := ⟨3, ![128, 64, 64]⟩
abbrev S64x64x4096 : Shape := ⟨3, ![64, 64, 4096]⟩

abbrev nBuf : Space → Nat
  | .hbm => 20
  | .vmem => 6
  | .smem => 0
  | _ => 0

abbrev bufTy : (tb : Table) → Fin (tcTables nBuf tb) → BufTy
  | .hbm, ⟨0, _⟩ => ⟨S64x32x64x64, .f32⟩
  | .hbm, ⟨1, _⟩ => ⟨S262144x288, .i32⟩
  | .hbm, ⟨2, _⟩ => ⟨S4096x64x288, .f32⟩
  | .hbm, ⟨3, _⟩ => ⟨S75497472, .i32⟩
  | .hbm, ⟨4, _⟩ => ⟨S8388608, .f32⟩
  | .hbm, ⟨5, _⟩ => ⟨S_, .i32⟩
  | .hbm, ⟨6, _⟩ => ⟨S75497472, .i32⟩
  | .hbm, ⟨7, _⟩ => ⟨S75497472, .i1⟩
  | .hbm, ⟨8, _⟩ => ⟨S_, .i32⟩
  | .hbm, ⟨9, _⟩ => ⟨S75497472, .i32⟩
  | .hbm, ⟨10, _⟩ => ⟨S75497472, .i32⟩
  | .hbm, ⟨11, _⟩ => ⟨S75497472, .i32⟩
  | .hbm, ⟨12, _⟩ => ⟨S75497472x1, .i32⟩
  | .hbm, ⟨13, _⟩ => ⟨S75497472, .f32⟩
  | .hbm, ⟨14, _⟩ => ⟨S64x4096x288, .f32⟩
  | .hbm, ⟨15, _⟩ => ⟨S4096x288x64, .f32⟩
  | .hbm, ⟨16, _⟩ => ⟨S4096x288x64, .bf16⟩
  | .hbm, ⟨17, _⟩ => ⟨S4096x64x288, .bf16⟩
  | .hbm, ⟨18, _⟩ => ⟨S4096x64x64, .f32⟩
  | .hbm, ⟨19, _⟩ => ⟨S64x64x4096, .f32⟩
  | .local _ .vmem, ⟨0, _⟩ => ⟨S128x64x288, .bf16⟩
  | .local _ .vmem, ⟨1, _⟩ => ⟨S128x64x288, .bf16⟩
  | .local _ .vmem, ⟨2, _⟩ => ⟨S128x288x64, .bf16⟩
  | .local _ .vmem, ⟨3, _⟩ => ⟨S128x288x64, .bf16⟩
  | .local _ .vmem, ⟨4, _⟩ => ⟨S128x64x64, .f32⟩
  | .local _ .vmem, ⟨5, _⟩ => ⟨S128x64x64, .f32⟩
  | _, _ => ⟨S64x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x288x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S262144x288_S75497472 : S262144x288.ShapeCasts S75497472
  shapeCasts_S64x32x64x64_S8388608 : S64x32x64x64.ShapeCasts S8388608
  bcast_S_S75497472 : S_.BroadcastsInDim S75497472 (![] : Fin 0 → Fin S75497472.rank)
  bcast_S75497472_S75497472x1_0 : S75497472.BroadcastsInDim S75497472x1 (![0] : Fin 1 → Fin S75497472x1.rank)
  shapeCasts_S75497472_S64x4096x288 : S75497472.ShapeCasts S64x4096x288
  transposes_S64x4096x288_S4096x288x64_1_2_0 : S64x4096x288.Transposes [1, 2, 0] S4096x288x64
  bitsLt_bf16_f32 : FTy.bits .bf16 < FTy.bits .f32
  inb_S128x64x288_S128x64x288_0_0_0 : ∀ a, (![0, 0, 0] : Fin 3 → Nat) a + S128x64x288.size a ≤ S128x64x288.size a
  h_S128x64x288 : 0 < S128x64x288.numel
  shapeCasts_S128x64x288_S128x64x288 : S128x64x288.ShapeCasts S128x64x288
  inb_S128x288x64_S128x288x64_0_0_0 : ∀ a, (![0, 0, 0] : Fin 3 → Nat) a + S128x288x64.size a ≤ S128x288x64.size a
  h_S128x288x64 : 0 < S128x288x64.numel
  shapeCasts_S128x288x64_S128x288x64 : S128x288x64.ShapeCasts S128x288x64
  inb_S128x64x64_S128x64x64_0_0_0 : ∀ a, (![0, 0, 0] : Fin 3 → Nat) a + S128x64x64.size a ≤ S128x64x64.size a
  h_S128x64x64 : 0 < S128x64x64.numel
  transposes_S4096x64x64_S64x64x4096_2_1_0 : S4096x64x64.Transposes [2, 1, 0] S64x64x4096
  gather_S8388608_S75497472x1_S75497472_n_0_n_n_0_1_1_wf : GatherDims.WF S8388608 S75497472x1 S75497472 [] [0] [] [0] [] 1 ![1]
  dot_S128x64x288_S128x288x64_S128x64x64_2_1_1_2_0_0_wf : DotDims.WF S128x64x288 S128x288x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x288.size a ≤ S4096x64x288.size a
  hwx0_0 : ∀ i : grid0.Coords, EltTy.bits .bf16 = 32 ∨ (Rect.block (s := S4096x64x288) S128x64x288.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x288x64.size a ≤ S4096x288x64.size a
  hwx0_1 : ∀ i : grid0.Coords, EltTy.bits .bf16 = 32 ∨ (Rect.block (s := S4096x288x64) S128x288x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x64.size a ≤ S4096x64x64.size a
  hwx0_2 : ∀ i : grid0.Coords, EltTy.bits .f32 = 32 ∨ (Rect.block (s := S4096x64x64) S128x64x64.size (cc0_transform_2 i) (hinb0_2 i)).WholeWords (EltTy.packing .f32)

variable [Facts₀]

def gather_S8388608_S75497472x1_S75497472_n_0_n_n_0_1_1 : GatherDims S8388608 S75497472x1 S75497472 where
  offsetDims := []
  collapsedSliceDims := [0]
  operandBatchingDims := []
  startIndicesBatchingDims := []
  startIndexMap := [0]
  indexVectorDim := 1
  sliceSizes := ![1]
  wf := gather_S8388608_S75497472x1_S75497472_n_0_n_n_0_1_1_wf
def dot_S128x64x288_S128x288x64_S128x64x64_2_1_1_2_0_0 : DotDims S128x64x288 S128x288x64 S128x64x64 where
  lhsContracting := [2]
  rhsContracting := [1]
  lhsNonContracting := [1]
  rhsNonContracting := [2]
  lhsBatch := [0]
  rhsBatch := [0]
  wf := dot_S128x64x288_S128x288x64_S128x64x64_2_1_1_2_0_0_wf

abbrev win0_0 : Pipeline.Window sig grid0 :=
  Pipeline.Window.ofSpec (Memref.whole main_v12) S128x64x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x288x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x32x64x64 : Shape := ⟨4, ![64, 32, 64, 64]⟩
abbrev S262144x288 : Shape := ⟨2, ![262144, 288]⟩
abbrev S4096x64x288 : Shape := ⟨3, ![4096, 64, 288]⟩
abbrev S75497472 : Shape := ⟨1, ![75497472]⟩
abbrev S8388608 : Shape := ⟨1, ![8388608]⟩
abbrev S_ : Shape := ⟨0, ![]⟩
abbrev S75497472x1 : Shape := ⟨2, ![75497472, 1]⟩
abbrev S64x4096x288 : Shape := ⟨3, ![64, 4096, 288]⟩
abbrev S4096x288x64 : Shape := ⟨3, ![4096, 288, 64]⟩
abbrev S4096x64x64 : Shape := ⟨3, ![4096, 64, 64]⟩
abbrev S64x64x4096 : Shape := ⟨3, ![64, 64, 4096]⟩

abbrev nBuf : Space → Nat
  | .hbm => 18
  | .vmem => 0
  | .smem => 0
  | _ => 0

abbrev bufTy : (tb : Table) → Fin (tcTables nBuf tb) → BufTy
  | .hbm, ⟨0, _⟩ => ⟨S64x32x64x64, .f32⟩
  | .hbm, ⟨1, _⟩ => ⟨S262144x288, .i32⟩
  | .hbm, ⟨2, _⟩ => ⟨S4096x64x288, .f32⟩
  | .hbm, ⟨3, _⟩ => ⟨S75497472, .i32⟩
  | .hbm, ⟨4, _⟩ => ⟨S8388608, .f32⟩
  | .hbm, ⟨5, _⟩ => ⟨S_, .i32⟩
  | .hbm, ⟨6, _⟩ => ⟨S75497472, .i32⟩
  | .hbm, ⟨7, _⟩ => ⟨S75497472, .i1⟩
  | .hbm, ⟨8, _⟩ => ⟨S_, .i32⟩
  | .hbm, ⟨9, _⟩ => ⟨S75497472, .i32⟩
  | .hbm, ⟨10, _⟩ => ⟨S75497472, .i32⟩
  | .hbm, ⟨11, _⟩ => ⟨S75497472, .i32⟩
  | .hbm, ⟨12, _⟩ => ⟨S75497472x1, .i32⟩
  | .hbm, ⟨13, _⟩ => ⟨S75497472, .f32⟩
  | .hbm, ⟨14, _⟩ => ⟨S64x4096x288, .f32⟩
  | .hbm, ⟨15, _⟩ => ⟨S4096x288x64, .f32⟩
  | .hbm, ⟨16, _⟩ => ⟨S4096x64x64, .f32⟩
  | .hbm, ⟨17, _⟩ => ⟨S64x64x4096, .f32⟩
  | _, _ => ⟨S64x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S262144x288_S75497472 : S262144x288.ShapeCasts S75497472
  shapeCasts_S64x32x64x64_S8388608 : S64x32x64x64.ShapeCasts S8388608
  bcast_S_S75497472 : S_.BroadcastsInDim S75497472 (![] : Fin 0 → Fin S75497472.rank)
  bcast_S75497472_S75497472x1_0 : S75497472.BroadcastsInDim S75497472x1 (![0] : Fin 1 → Fin S75497472x1.rank)
  shapeCasts_S75497472_S64x4096x288 : S75497472.ShapeCasts S64x4096x288
  transposes_S64x4096x288_S4096x288x64_1_2_0 : S64x4096x288.Transposes [1, 2, 0] S4096x288x64
  transposes_S4096x64x64_S64x64x4096_2_1_0 : S4096x64x64.Transposes [2, 1, 0] S64x64x4096
  gather_S8388608_S75497472x1_S75497472_n_0_n_n_0_1_1_wf : GatherDims.WF S8388608 S75497472x1 S75497472 [] [0] [] [0] [] 1 ![1]
  dot_S4096x64x288_S4096x288x64_S4096x64x64_2_1_1_2_0_0_wf : DotDims.WF S4096x64x288 S4096x288x64 S4096x64x64 [2] [1] [1] [2] [0] [0]

variable [Facts₀]

def gather_S8388608_S75497472x1_S75497472_n_0_n_n_0_1_1 : GatherDims S8388608 S75497472x1 S75497472 where
  offsetDims := []
  collapsedSliceDims := [0]
  operandBatchingDims := []
  startIndicesBatchingDims := []
  startIndexMap := [0]
  indexVectorDim := 1
  sliceSizes := ![1]
  wf := gather_S8388608_S75497472x1_S75497472_n_0_n_n_0_1_1_wf
def dot_S4096x64x288_S4096x288x64_S4096x64x64_2_1_1_2_0_0 : DotDims S4096x64x288 S4096x288x64 S4096x64x64 where
  lhsContracting := [2]
  rhsContracting := [1]
  lhsNonContracting := [1]
  rhsNonContracting := [2]
  lhsBatch := [0]
  rhsBatch := [0]
  wf := dot_S4096x64x288_S4096x288x64_S4096x64x64_2_1_1_2_0_0_wf

class Facts : Prop extends Facts₀ where

variable [Facts]
-- ==== Proof.LibBatchDot.lean ====
/-
  A batched matrix product's contraction sum, re-indexed.

  For a contraction of a [P, K, C] array with a [P, C, B] array in which axis 0 of both operands is the batch axis,
  the left operand contracts its axis 2 and the right operand its axis 1, the sum over the contraction's own index type
  of the operands' products at the result index (p, k, b) is the plain sum over c < C of l(p, k, c) * r(p, c, b).
  Stated at abstract extents and for any such dimension record, so that one lemma serves every batched product of a
  program, whatever its sizes (a block of the batch axis and the whole array are two instances).

  The operand indices are read one axis at a time.  A batch axis reads the result index at its position among the batch
  axes (here position 0 on both sides).  The left operand's axis 1 is its only non-contracting axis and reads the result
  index after the one batch axis, at position 1 + 0; the right operand's axis 2 is its only non-contracting axis and
  reads the result index after the batch axis and the left operand's non-contracting axis, at position 1 + 1 + 0.
  The contracting axis of either operand reads the contraction index's one coordinate.  The contraction index type has
  one axis of extent C, so it is in bijection with the numbers below C, and the sum is carried along that bijection.
-/
import Idealize.ShloMosaic.PureOps.Dims
import Idealize.ShloMosaic.Lib.ValueIdx

namespace BatchDot

open Idealize.ShloMosaic Idealize.ShloMosaic.ValueIdx

variable {P K C B : Nat}

/-- A coordinate of an index depends only on the axis' number, not on how the number is written. -/
theorem coord_val_congr {s : Shape} (j : s.Idx) (a b : Nat) (ha : a < s.rank) (hb : b < s.rank) (h : a = b) :
    (j ⟨a, ha⟩).val = (j ⟨b, hb⟩).val := by
  subst h; rfl

/-- Two different axes of a rank-3 shape are not the same member of a one-element list. -/
theorem not_mem_single {a b : Fin 3} (h : a.val ≠ b.val) : ¬ a ∈ [b] := fun hm =>
  h (congrArg Fin.val (List.mem_singleton.mp hm))

section
variable (d : DotDims ⟨3, ![P, K, C]⟩ ⟨3, ![P, C, B]⟩ ⟨3, ![P, K, B]⟩)

/-- The left operand's batch axis reads the result index's coordinate 0. -/
theorem lhs_val_0 (hlb : d.lhsBatch = [0]) (j : (⟨3, ![P, K, B]⟩ : Shape).Idx) (q : d.contr.Idx) :
    (d.lhsIdx j q (0 : Fin 3)).val = (j (0 : Fin 3)).val := by
  have hb : (0 : Fin 3) ∈ d.lhsBatch := by rw [hlb]; exact List.mem_singleton.mpr rfl
  unfold DotDims.lhsIdx
  rw [dif_pos hb]
  simp only [Fin.val_cast]
  exact coord_val_congr j _ _ _ _ (by simp [hlb])

/-- The left operand's axis 1, its only non-contracting axis, reads the result index's coordinate 1: the position after
    the one batch axis. -/
theorem lhs_val_1 (hlb : d.lhsBatch = [0]) (hln : d.lhsNonContracting = [1])
    (j : (⟨3, ![P, K, B]⟩ : Shape).Idx) (q : d.contr.Idx) :
    (d.lhsIdx j q (1 : Fin 3)).val = (j (1 : Fin 3)).val := by
  have hb : ¬ (1 : Fin 3) ∈ d.lhsBatch := by rw [hlb]; exact not_mem_single (a := 1) (b := 0) (by decide)
  have hn : (1 : Fin 3) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 2, the only contracting axis, reads the contraction index's one coordinate. -/
theorem lhs_val_2 (hlc : d.lhsContracting = [2]) (hr : d.contr.rank = 1)
    (j : (⟨3, ![P, K, B]⟩ : Shape).Idx) (q : d.contr.Idx) :
    (d.lhsIdx j q (2 : Fin 3)).val = (q ⟨0, by omega⟩).val :=
  d.lhsIdx_val_of_single hlc j q

/-- The right operand's batch axis reads the result index's coordinate 0. -/
theorem rhs_val_0 (hrb : d.rhsBatch = [0]) (j : (⟨3, ![P, K, B]⟩ : Shape).Idx) (q : d.contr.Idx) :
    (d.rhsIdx j q (0 : Fin 3)).val = (j (0 : Fin 3)).val := by
  have hb : (0 : Fin 3) ∈ d.rhsBatch := by rw [hrb]; exact List.mem_singleton.mpr rfl
  unfold DotDims.rhsIdx
  rw [dif_pos hb]
  simp only [Fin.val_cast]
  exact coord_val_congr j _ _ _ _ (by simp [hrb])

/-- The right operand's axis 1, the only contracting axis, reads the contraction index's one coordinate. -/
theorem rhs_val_1 (hrc : d.rhsContracting = [1]) (hr : d.contr.rank = 1)
    (j : (⟨3, ![P, K, B]⟩ : Shape).Idx) (q : d.contr.Idx) :
    (d.rhsIdx j q (1 : Fin 3)).val = (q ⟨0, by omega⟩).val :=
  d.rhsIdx_val_of_single hrc j q

/-- The right operand's axis 2, its only non-contracting axis, reads the result index's coordinate 2: the position
    after the one batch axis and the left operand's one non-contracting axis. -/
theorem rhs_val_2 (hrb : d.rhsBatch = [0]) (hrn : d.rhsNonContracting = [2])
    (hlb : d.lhsBatch = [0]) (hln : d.lhsNonContracting = [1])
    (j : (⟨3, ![P, K, B]⟩ : Shape).Idx) (q : d.contr.Idx) :
    (d.rhsIdx j q (2 : Fin 3)).val = (j (2 : Fin 3)).val := by
  have hb : ¬ (2 : Fin 3) ∈ d.rhsBatch := by rw [hrb]; exact not_mem_single (a := 2) (b := 0) (by decide)
  have hn : (2 : Fin 3) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, k, b)` and contraction position `c` is `(p, k, c)`. -/
theorem lhsIdx_eq (hlb : d.lhsBatch = [0]) (hln : d.lhsNonContracting = [1]) (hlc : d.lhsContracting = [2])
    (hr : d.contr.rank = 1) (hs : d.contr.size ⟨0, by omega⟩ = C)
    (p : Fin P) (k : Fin K) (b : Fin B) (c : Fin C) :
    d.lhsIdx (ix3 p k b) ((contrEquiv1 d C hr hs).symm c) = ix3 p k c := by
  funext a
  apply Fin.ext
  match a with
  | ⟨0, _⟩ => exact lhs_val_0 d hlb (ix3 p k b) _
  | ⟨1, _⟩ => exact lhs_val_1 d hlb hln (ix3 p k b) _
  | ⟨2, _⟩ => exact (lhs_val_2 d hlc hr (ix3 p k b) _).trans (contrEquiv1_symm_val d C hr hs c)

/-- The right operand's index at result index `(p, k, b)` and contraction position `c` is `(p, c, b)`. -/
theorem rhsIdx_eq (hrb : d.rhsBatch = [0]) (hrn : d.rhsNonContracting = [2]) (hrc : d.rhsContracting = [1])
    (hlb : d.lhsBatch = [0]) (hln : d.lhsNonContracting = [1])
    (hr : d.contr.rank = 1) (hs : d.contr.size ⟨0, by omega⟩ = C)
    (p : Fin P) (k : Fin K) (b : Fin B) (c : Fin C) :
    d.rhsIdx (ix3 p k b) ((contrEquiv1 d C hr hs).symm c) = ix3 p c b := by
  funext a
  apply Fin.ext
  match a with
  | ⟨0, _⟩ => exact rhs_val_0 d hrb (ix3 p k b) _
  | ⟨1, _⟩ => exact (rhs_val_1 d hrc hr (ix3 p k b) _).trans (contrEquiv1_symm_val d C hr hs c)
  | ⟨2, _⟩ => exact rhs_val_2 d hrb hrn hlb hln (ix3 p k b) _

/-- The contraction sum at `(p, k, b)` is `∑ c < C, l (p, k, c) * r (p, c, b)`. -/
theorem sum_eq {M : Type} [AddCommMonoid M] [Mul M]
    (hlb : d.lhsBatch = [0]) (hln : d.lhsNonContracting = [1]) (hlc : d.lhsContracting = [2])
    (hrb : d.rhsBatch = [0]) (hrn : d.rhsNonContracting = [2]) (hrc : d.rhsContracting = [1])
    (l : (⟨3, ![P, K, C]⟩ : Shape).Idx → M) (r : (⟨3, ![P, C, B]⟩ : Shape).Idx → M) (p : Fin P) (k : Fin K) (b : Fin B) :
    ∑ q : d.contr.Idx, l (d.lhsIdx (ix3 p k b) q) * r (d.rhsIdx (ix3 p k b) q) = ∑ c : Fin C, l (ix3 p k c) * r (ix3 p c b) := by
  have hr : d.contr.rank = 1 := by rw [d.rank_contr, hlc]; rfl
  have hs : d.contr.size ⟨0, by omega⟩ = C := by
    have h := d.size_contr 0 (by rw [hlc]; exact Nat.one_pos)
    rw [h]
    simp [hlc]
  refine (Equiv.sum_comp (contrEquiv1 d C hr hs).symm _).symm.trans (Finset.sum_congr rfl fun c _ => ?_)
  rw [lhsIdx_eq d hlb hln hlc hr hs p k b c, rhsIdx_eq d hrb hrn hrc hlb hln hr hs p k b c]

end

end BatchDot
-- ==== Proof.PixelProduct.lean ====
/-
  The per-pixel matrix product, as one function of two arrays.

  For every pixel p the [K, C] matrix w(p, ·, ·) is multiplied with the [C, B] matrix g(p, ·, ·):
  out(p, k, b) = ∑ c < C, w(p, k, c) * g(p, c, b) on the extended reals.  Both the matrix unit's product into a zero
  accumulator and the host's general dot product, with axis 0 of both operands as the batch axis and one contracted
  axis (axis 2 of the left operand against axis 1 of the right), are this function: each is by definition the
  accumulator (zero) plus the sum over the contraction's index type of the operands' products, and that sum is the
  plain sum over c < C.  No property of the entries is needed: adding the zero accumulator is the only step of
  arithmetic, and it holds on every extended real.
-/
import proofs.«102565_j1563368095799_1_alg».proof.Proof.LibBatchDot
import Idealize.ShloMosaic.PureOps.Ideal.Laws

noncomputable section

namespace PixelProduct

open Idealize.ShloMosaic Idealize.ShloMosaic.ValueIdx

variable {P K C B : Nat}

/-- `out(p, k, b) = ∑ c, w(p, k, c) * g(p, c, b)`. -/
def prod (w : (⟨3, ![P, K, C]⟩ : Shape).Idx → EReal) (g : (⟨3, ![P, C, B]⟩ : Shape).Idx → EReal) :
    (⟨3, ![P, K, B]⟩ : Shape).Idx → EReal :=
  fun i => ∑ c : Fin C, w (ix3 (i 0) (i 1) c) * g (ix3 (i 0) c (i 2))

/-- At coordinates. -/
theorem prod_ix3 (w : (⟨3, ![P, K, C]⟩ : Shape).Idx → EReal) (g : (⟨3, ![P, C, B]⟩ : Shape).Idx → EReal)
    (p : Fin P) (k : Fin K) (b : Fin B) :
    prod w g (ix3 p k b) = ∑ c : Fin C, w (ix3 p k c) * g (ix3 p c b) := rfl

section
variable {φ₁ φ₂ : FTy} (d : DotDims ⟨3, ![P, K, C]⟩ ⟨3, ![P, C, B]⟩ ⟨3, ![P, K, B]⟩)
  (hlb : d.lhsBatch = [0]) (hln : d.lhsNonContracting = [1]) (hlc : d.lhsContracting = [2])
  (hrb : d.rhsBatch = [0]) (hrn : d.rhsNonContracting = [2]) (hrc : d.rhsContracting = [1])
include hlb hln hlc hrb hrn hrc

/-- The matrix unit's batched product into the zero accumulator is the per-pixel product. -/
theorem matmul_zero_eq (prec : Option ContractPrecision)
    (l : FVec Ideal ⟨3, ![P, K, C]⟩ φ₁) (r : FVec Ideal ⟨3, ![P, C, B]⟩ φ₂) :
    FloatOps.matmul d prec l r (constant (F := Ideal) ⟨3, ![P, K, B]⟩ .f32 0x00000000#32) = prod l r := by
  funext i
  obtain ⟨p, k, b, rfl⟩ : ∃ (p : Fin P) (k : Fin K) (b : Fin B), i = ix3 p k b := ⟨i 0, i 1, i 2, eq_ix3 i⟩
  rw [Ideal.matmul_constant_zero_apply, prod_ix3]
  exact BatchDot.sum_eq d hlb hln hlc hrb hrn hrc l r p k b

/-- The host's batched general dot product is the per-pixel product. -/
theorem dotGeneral_eq (prec : Option ContractPrecision) (sched : HostSchedule)
    (l : FVec Ideal ⟨3, ![P, K, C]⟩ φ₁) (r : FVec Ideal ⟨3, ![P, C, B]⟩ φ₂) :
    FloatOps.dotGeneral d prec sched l r = prod l r := by
  funext i
  obtain ⟨p, k, b, rfl⟩ : ∃ (p : Fin P) (k : Fin K) (b : Fin B), i = ix3 p k b := ⟨i 0, i 1, i 2, eq_ix3 i⟩
  rw [Ideal.dotGeneral_apply, prod_ix3]
  exact BatchDot.sum_eq d hlb hln hlc hrb hrn hrc l r p k b

end

end PixelProduct

end
-- ==== Proof.KernelValue.lean ====
/-
  What the kernel program's result array holds.

  The program gathers the image into an array g of shape [4096, 288, 64], rounds g and the weights w to the narrow
  float format (the identity on the extended reals), runs the matrix unit over 32 blocks of 128 pixels, and transposes
  the [4096, 64, 64] result to [64, 64, 4096].

  Block t of the region's output holds, at (p', k, b), the sum over c < 288 of the t-th block of w at (p', k, c) times
  the t-th block of g at (p', c, b); a block of an array along axis 0 reads the array at row t * 128 + p' with the
  other coordinates unchanged, so block t is the block of the per-pixel product of the whole arrays.  The 32 blocks
  tile axis 0 (row r lies in block r / 128), so the output array is the per-pixel product of w and g, and the
  program's result is its transpose.
-/
import proofs.«102565_j1563368095799_1_alg».proof.Proof.Gen.KernelIdeal.Frame
import proofs.«102565_j1563368095799_1_alg».proof.Proof.PixelProduct
import Idealize.ShloMosaic.Lib.Pipeline.Value
import Idealize.ShloMosaic.Lib.ValueIdx
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The arrays the region reads, and their blocks, as functions into the extended reals -/

/-- The weights as the region finds them. -/
abbrev wArr (c : Dev nD) : S4096x64x288.Idx → EReal := V m c main_v12
/-- The gathered image as the region finds it. -/
abbrev gArr (c : Dev nD) : S4096x288x64.Idx → EReal := V m c main_v11
/-- Block `t` of the weights. -/
abbrev wBlk (c : Dev nD) (t : Fin cfg0.N) : S128x64x288.Idx → EReal := iblk m c 0 t
/-- Block `t` of the gathered image. -/
abbrev gBlk (c : Dev nD) (t : Fin cfg0.N) : S128x288x64.Idx → EReal := iblk m c 1 t

theorem offsets_zero : (![0, 0, 0] : Fin 3 → Nat) = fun _ => 0 := funext fun a => by fin_cases a <;> rfl

/-! ## The body's payload -/

/-- The body's one stored value is the per-pixel product of the two loaded blocks. -/
theorem payload_eq (x0 : Vec Ideal S128x64x288 .bf16) (x1 : Vec Ideal S128x288x64 .bf16) :
    k0_pay1 (F := Ideal) x0 x1 = PixelProduct.prod (P := 128) (K := 64) (C := 288) (B := 64) x0 x1 := by
  unfold k0_pay1
  show FloatOps.matmul dot_S128x64x288_S128x288x64_S128x64x64_2_1_1_2_0_0 none
      (shapeCast S128x64x288 x0 shapeCasts_S128x64x288_S128x64x288) (shapeCast S128x288x64 x1 shapeCasts_S128x288x64_S128x288x64)
      (constant (F := Ideal) S128x64x64 .f32 0x00000000#32) = _
  rw [shapeCast_self, shapeCast_self]
  exact PixelProduct.matmul_zero_eq dot_S128x64x288_S128x288x64_S128x64x64_2_1_1_2_0_0 rfl rfl rfl rfl rfl rfl none x0 x1

/-! ## Where a block sits in its array -/

/-- The printed index maps, decided over the 32 grid points: each window's block index is `(t, 0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 32 := lt_of_lt_of_eq t.isLt N_0

/-- Row `p'` of block `t` is row `t * 128 + p'` of the array. -/
def rowOf (t : Fin cfg0.N) (p : Fin 128) : Fin 4096 := ⟨t.val * 128 + p.val, by have := point_lt t; have := p.isLt; omega⟩

theorem emb_w (t : Fin cfg0.N) (p : Fin 128) (k : Fin 64) (c' : Fin 288) :
    ((cfg0.win 0).blk t).view.emb (ix3 p k c') = ix3 (rowOf t p) k c' := by
  obtain ⟨e0, e1, e2, -⟩ := index_facts t
  funext a; apply Fin.ext
  match a with
  | ⟨0, _⟩ => show win0_0.index t (0 : Fin 3) * 128 + 1 * p.val = t.val * 128 + p.val; rw [e0]; omega
  | ⟨1, _⟩ => show win0_0.index t (1 : Fin 3) * 64 + 1 * k.val = k.val; rw [e1]; omega
  | ⟨2, _⟩ => show win0_0.index t (2 : Fin 3) * 288 + 1 * c'.val = c'.val; rw [e2]; omega

theorem emb_g (t : Fin cfg0.N) (p : Fin 128) (c' : Fin 288) (b : Fin 64) :
    ((cfg0.win 1).blk t).view.emb (ix3 p c' b) = ix3 (rowOf t p) c' b := by
  obtain ⟨-, -, -, e0, e1, e2, -⟩ := index_facts t
  funext a; apply Fin.ext
  match a with
  | ⟨0, _⟩ => show win0_1.index t (0 : Fin 3) * 128 + 1 * p.val = t.val * 128 + p.val; rw [e0]; omega
  | ⟨1, _⟩ => show win0_1.index t (1 : Fin 3) * 288 + 1 * c'.val = c'.val; rw [e1]; omega
  | ⟨2, _⟩ => show win0_1.index t (2 : Fin 3) * 64 + 1 * b.val = b.val; rw [e2]; omega

theorem emb_out (t : Fin cfg0.N) (p : Fin 128) (k : Fin 64) (b : Fin 64) :
    ((cfg0.win 2).blk t).view.emb (ix3 p k b) = ix3 (rowOf t p) k b := by
  obtain ⟨-, -, -, -, -, -, e0, e1, e2⟩ := index_facts t
  funext a; apply Fin.ext
  match a with
  | ⟨0, _⟩ => show win0_2.index t (0 : Fin 3) * 128 + 1 * p.val = t.val * 128 + p.val; rw [e0]; omega
  | ⟨1, _⟩ => show win0_2.index t (1 : Fin 3) * 64 + 1 * k.val = k.val; rw [e1]; omega
  | ⟨2, _⟩ => show win0_2.index t (2 : Fin 3) * 64 + 1 * b.val = b.val; rw [e2]; omega

/-! ## What a point writes back -/

/-- Point `t` writes back block `t` of the per-pixel product of the whole arrays. -/
theorem flushed_eq (c : Dev nD) (t : Fin cfg0.N) :
    (dats m 0 c).flushed 2 t
      = ((cfg0.win 2).blk t).view.read (Elt Ideal) (PixelProduct.prod (P := 4096) (K := 64) (C := 288) (B := 64) (wArr m c) (gArr m c)) := by
  show (cfg0.win 2).cut (grid0.coords t) ((dats m 0 c).after 2 t) = _
  rw [after0_2]
  unfold out0_2
  rw [View.canon_unit_zero offsets_zero]
  simp only [View.ld_unit_zero (S := S128x64x288) offsets_zero, View.ld_unit_zero (S := S128x288x64) offsets_zero]
  rw [payload_eq (iblk m c 0 t) (iblk m c 1 t)]
  funext j
  obtain ⟨p, k, b, rfl⟩ : ∃ (p : Fin 128) (k : Fin 64) (b : Fin 64), j = ix3 p k b := ⟨j 0, j 1, j 2, eq_ix3 j⟩
  show PixelProduct.prod (P := 128) (K := 64) (C := 288) (B := 64) (wBlk m c t) (gBlk m c t) (ix3 p k b)
    = PixelProduct.prod (P := 4096) (K := 64) (C := 288) (B := 64) (wArr m c) (gArr m c) (((cfg0.win 2).blk t).view.emb (ix3 p k b))
  rw [emb_out t p k b, PixelProduct.prod_ix3, PixelProduct.prod_ix3]
  refine Finset.sum_congr rfl fun c' _ => ?_
  show wArr m c (((cfg0.win 0).blk t).view.emb (ix3 p k c')) * gArr m c (((cfg0.win 1).blk t).view.emb (ix3 p c' b)) = _
  rw [emb_w t p k c', emb_g t p c' b]

/-! ## The blocks tile the output array -/

theorem mem_blk (t : Fin cfg0.N) (i : S4096x64x64.Idx) :
    i ∈ ((cfg0.win 2).blk t).view.set ↔ ∀ a : Fin 3, win0_2.index t a * S128x64x64.size a ≤ (i a).val ∧ (i a).val < win0_2.index t a * S128x64x64.size a + S128x64x64.size a := by
  show i ∈ ((View.whole main_v13).slice (win0_2.rect t)).set ↔ _
  rw [View.set_slice_whole, Rect.mem_set_unit]
  exact Iff.rfl

/-- Row `r` of the output lies in the block of point `r / 128`. -/
theorem cover (i : S4096x64x64.Idx) : ∃ t : Fin cfg0.N, (cfg0.win 2).flush t = true ∧ i ∈ ((cfg0.win 2).blk t).view.set := by
  have h0 : (i 0).val < 4096 := (i 0).isLt
  have h1 : (i 1).val < 64 := (i 1).isLt
  have h2 : (i 2).val < 64 := (i 2).isLt
  have hN : (i 0).val / 128 < cfg0.N := lt_of_lt_of_eq (by omega : (i 0).val / 128 < 32) N_0.symm
  refine ⟨⟨(i 0).val / 128, hN⟩, flush0_2 _, ?_⟩
  obtain ⟨-, -, -, -, -, -, e0, e1, e2⟩ := index_facts ⟨(i 0).val / 128, hN⟩
  rw [mem_blk]
  intro a
  match a with
  | ⟨0, _⟩ => show win0_2.index ⟨(i 0).val / 128, hN⟩ (0 : Fin 3) * 128 ≤ (i 0).val ∧ (i 0).val < win0_2.index ⟨(i 0).val / 128, hN⟩ (0 : Fin 3) * 128 + 128; rw [e0]; show (i 0).val / 128 * 128 ≤ (i 0).val ∧ (i 0).val < (i 0).val / 128 * 128 + 128; omega
  | ⟨1, _⟩ => show win0_2.index ⟨(i 0).val / 128, hN⟩ (1 : Fin 3) * 64 ≤ (i 1).val ∧ (i 1).val < win0_2.index ⟨(i 0).val / 128, hN⟩ (1 : Fin 3) * 64 + 64; rw [e1]; omega
  | ⟨2, _⟩ => show win0_2.index ⟨(i 0).val / 128, hN⟩ (2 : Fin 3) * 64 ≤ (i 2).val ∧ (i 2).val < win0_2.index ⟨(i 0).val / 128, hN⟩ (2 : Fin 3) * 64 + 64; rw [e2]; omega

/-- The region's output array after the run is the per-pixel product of the arrays the region reads. -/
theorem region_out (c : Dev nD) :
    (dats m 0 c).arrAt 2 cfg0.N = PixelProduct.prod (P := 4096) (K := 64) (C := 288) (B := 64) (wArr m c) (gArr m c) :=
  (dats m 0 c).arrAt_eq_of_cover 2 _ (fun t _ => flushed_eq m c t) cover

end Cert.KernelIdeal.Bridge

end
-- ==== Proof.KernelRun.lean ====
/-
  The kernel program's run, with its result named.

  Before the region the host lines gather the image (a reshape of the index table, the wrap of negative indices, the
  gather from the flattened image, a reshape and a transpose) and change the float format of the gathered array and of
  the weights; on the extended reals a change of format is the identity, so the region finds the weights themselves and
  the gathered array.  After the region one host line transposes the region's output.  Hence the program's result is
  the transpose of the per-pixel product of the weights with the gathered array.
-/
import proofs.«102565_j1563368095799_1_alg».proof.Proof.KernelValue

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The gathered image as a function of the image and the index table: negative indices are wrapped by the flat
    image's length, the flat image is gathered at them, and the result is laid out as [pixel, gathered value, batch]. -/
def gathered (x0 : (⟨S64x32x64x64, .f32⟩ : BufTy).Contents (Elt Ideal)) (x1 : (⟨S262144x288, .i32⟩ : BufTy).Contents (Elt Ideal)) :
    S4096x288x64.Idx → EReal :=
  transpose S4096x288x64 [1, 2, 0] (shapeCast _ (Host.gather gather_S8388608_S75497472x1_S75497472_n_0_n_n_0_1_1 (shapeCast _ x0 shapeCasts_S64x32x64x64_S8388608) (broadcastInDim S75497472x1 ![0] bcast_S75497472_S75497472x1_0 (select (cmpi .slt (shapeCast _ x1 shapeCasts_S262144x288_S75497472) (broadcastInDim S75497472 ![] bcast_S_S75497472 (constantI S_ 32 0#32))) (addi (shapeCast _ x1 shapeCasts_S262144x288_S75497472) (broadcastInDim S75497472 ![] bcast_S_S75497472 (constantI S_ 32 8388608#32))) (shapeCast _ x1 shapeCasts_S262144x288_S75497472)))) shapeCasts_S75497472_S64x4096x288) transposes_S64x4096x288_S4096x288x64_1_2_0

/-- The program's result as a function of its three arguments. -/
def result (x0 : (⟨S64x32x64x64, .f32⟩ : BufTy).Contents (Elt Ideal)) (x1 : (⟨S262144x288, .i32⟩ : BufTy).Contents (Elt Ideal))
    (x2 : (⟨S4096x64x288, .f32⟩ : BufTy).Contents (Elt Ideal)) : S64x64x4096.Idx → EReal :=
  transpose S64x64x4096 [2, 1, 0] (PixelProduct.prod (P := 4096) (K := 64) (C := 288) (B := 64) x2 (gathered x0 x1)) transposes_S4096x64x64_S64x64x4096_2_1_0

/-- The region finds the weights themselves: the format change is the identity on the extended reals. -/
theorem wArr_eq (c : Dev nD) : wArr m c = m ((c : Thread nD τ).loc main_arg2) := by
  show StableHlo.after hostOps0 (fun b => m (c, b)) (Proc.devRef .tc main_v12) = _
  after_results
  rfl

/-- The region finds the gathered image. -/
theorem gArr_eq (c : Dev nD) : gArr m c = gathered (m ((c : Thread nD τ).loc main_arg0)) (m ((c : Thread nD τ).loc main_arg1)) := by
  show StableHlo.after hostOps0 (fun b => m (c, b)) (Proc.devRef .tc main_v11) = _
  after_results
  rfl

/-- The line after the region transposes the region's output. -/
theorem tail_eq (c : Dev nD) :
    Pipeline.afterTail₀ cfgs (dats m) 0 (V0 m) [hostOps1] c main_v14
      = result (m ((c : Thread nD τ).loc main_arg0)) (m ((c : Thread nD τ).loc main_arg1)) (m ((c : Thread nD τ).loc main_arg2)) := by
  unfold Pipeline.afterTail₀
  show StableHlo.after hostOps1 _ (Proc.devRef .tc main_v14) = _
  after_results
  unfold result
  refine congrArg (fun a => transpose S64x64x4096 [2, 1, 0] a transposes_S4096x64x64_S64x64x4096_2_1_0) ?_
  refine ((Pipeline.withArrays_arr spec0 launch0.win.arr_inj c _ _ 2).trans (region_out m c)).trans ?_
  rw [wArr_eq m c, gArr_eq m c]

/-- Every weakly fair execution of the kernel program terminates with its result at `result` of the arguments and the
    arguments unchanged: the generated frame run, with the transposed region output read as above. -/
theorem run : θ_run defs (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v14 (Pipeline.mem_restRefs_of main_v14 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Bridge

end
-- ==== Proof.RefSide.lean ====
/-
  What the reference program's result holds.

  The reference gathers the image exactly as the kernel program does, takes the host's general dot product of the
  weights with the gathered array (axis 0 the batch axis, the weights' axis 2 contracted against the gathered array's
  axis 1) and transposes it.  On the extended reals that dot product is the per-pixel product, so the result is the
  transpose of the per-pixel product of the weights with the gathered array.
-/
import proofs.«102565_j1563368095799_1_alg».proof.Proof.Gen.ReferenceIdeal.Run
import proofs.«102565_j1563368095799_1_alg».proof.Proof.Gen.ReferenceIdeal.Read
import proofs.«102565_j1563368095799_1_alg».proof.Proof.PixelProduct

noncomputable section

namespace Cert.ReferenceIdeal.Bridge

open Cert.ReferenceIdeal Cert.ReferenceIdeal.Gen Cert.ReferenceIdeal.Read
open Idealize.ShloMosaic Idealize.ShloMosaic.TcCoe Idealize.SL.Sem

/-- The reference's last stage is the transpose of the per-pixel product of the weights with its gathered array. -/
theorem result_eq (x0 : (⟨S64x32x64x64, .f32⟩ : BufTy).Contents (Elt Ideal)) (x1 : (⟨S262144x288, .i32⟩ : BufTy).Contents (Elt Ideal))
    (x2 : (⟨S4096x64x288, .f32⟩ : BufTy).Contents (Elt Ideal)) :
    val_main_v12 (F := Ideal) x0 x1 x2
      = transpose S64x64x4096 [2, 1, 0]
          (PixelProduct.prod (P := 4096) (K := 64) (C := 288) (B := 64) x2 (val_main_v10 (F := Ideal) x0 x1))
          transposes_S4096x64x64_S64x64x4096_2_1_0 := by
  unfold val_main_v12
  refine congrArg (fun a => transpose S64x64x4096 [2, 1, 0] a transposes_S4096x64x64_S64x64x4096_2_1_0) ?_
  unfold val_main_v11
  exact PixelProduct.dotGeneral_eq dot_S4096x64x288_S4096x288x64_S4096x64x64_2_1_1_2_0_0 rfl rfl rfl rfl rfl rfl none .single x2
    (val_main_v10 (F := Ideal) x0 x1)

end Cert.ReferenceIdeal.Bridge

end
-- ==== Proof.lean ====
/-
  The kernel program and its reference compute the same array on the extended reals.

  Both programs gather the image through the index table with the same host operations, multiply per pixel the
  [64, 288] weight matrix with the [288, 64] gathered matrix, and transpose the [4096, 64, 64] product to
  [64, 64, 4096].  The kernel program first rounds both operands to a narrower float format, which on the extended
  reals is the identity, and computes the product on the matrix unit block by block of 128 pixels into a zero
  accumulator; the reference takes one general dot product on the host.  Each is the sum over the 288 gathered values
  of the products of the entries, so the two results agree entry by entry.  The only arithmetic law used is that
  adding zero changes nothing, which holds for every extended real: the finiteness of the inputs is not needed for
  the equality of the values.

  The three programs terminate without a fault with their arguments unchanged: the two kernel programs by their
  generated frame runs, the reference by its generated run.  The idealization rewrote no operation, so there is
  nothing to preserve.
-/
import proofs.«102565_j1563368095799_1_alg».proof.Defs
import proofs.«102565_j1563368095799_1_alg».proof.Proof.Gen.Kernel
import proofs.«102565_j1563368095799_1_alg».proof.Proof.Gen.Kernel.Frame
import proofs.«102565_j1563368095799_1_alg».proof.Proof.Gen.KernelIdeal
import proofs.«102565_j1563368095799_1_alg».proof.Proof.Gen.KernelIdeal.Frame
import proofs.«102565_j1563368095799_1_alg».proof.Proof.Gen.ReferenceIdeal
import proofs.«102565_j1563368095799_1_alg».proof.Proof.Gen.Pre_finite_inputs
import proofs.«102565_j1563368095799_1_alg».proof.Proof.KernelRun
import proofs.«102565_j1563368095799_1_alg».proof.Proof.RefSide
import Idealize.ShloMosaic.Adequacy
import Idealize.ShloMosaic.Init

noncomputable section

namespace Cert.Proof

open Idealize.ShloMosaic Idealize.ShloMosaic.TcCoe Idealize.SL.Sem

/-- The two programs gather the image by the same operations: the gathered arrays are one function of the image and
    the index table. -/
theorem same_gathered (x0 : (⟨Cert.ReferenceIdeal.S64x32x64x64, .f32⟩ : BufTy).Contents (Elt Ideal))
    (x1 : (⟨Cert.ReferenceIdeal.S262144x288, .i32⟩ : BufTy).Contents (Elt Ideal)) :
    Cert.ReferenceIdeal.Read.val_main_v10 (F := Ideal) x0 x1 = Cert.KernelIdeal.Bridge.gathered x0 x1 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the transpose of the per-pixel product of the weights with the gathered image. -/
theorem algebraic : Cert.algebraic_KernelIdeal_ReferenceIdeal := by
  intro m ρ m' ρ' _ hagree
  refine ⟨fun c => Cert.KernelIdeal.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v12_eq,
    Cert.ReferenceIdeal.Bridge.result_eq, same_gathered]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
